-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S28672x4096 : Shape := ⟨2, ![28672, 4096]⟩
abbrev S28672x32 : Shape := ⟨2, ![28672, 32]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S28672x4096 : S_.BroadcastsInDim S28672x4096 (![] : Fin 0 → Fin S28672x4096.rank)
  reducesTo_S28672x4096_S_d0_1 : S28672x4096.ReducesTo [0, 1] S_
  bcast_S_S28672x32 : S_.BroadcastsInDim S28672x32 (![] : Fin 0 → Fin S28672x32.rank)
  reducesTo_S28672x32_S_d0_1 : S28672x32.ReducesTo [0, 1] S_

variable [Facts]

def fn {F : FTy → Type} [FloatOps F] (main_arg0 : FVec F S2048x4096 .f32) (main_arg1 : FVec F S28672x4096 .f32) (main_arg2 : FVec F S28672x32 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S28672x4096 .f32 := Host.absf main_arg1
  let main_cst_0 : FVec F S_ .f32 := constant S_ .f32 0x7F800000#32
  let main_v5 : FVec F S28672x4096 .f32 := broadcastInDim S28672x4096 ![] bcast_S_S28672x4096 main_cst_0
  let main_v6 : IVec S28672x4096 1 := cmpf .olt main_v4 main_v5
  let main_c_1 : IVec S_ 1 := constantI S_ 1 1#1
  let main_v7 : IVec S_ 1 := (fun x v => Host.reduce IntOp.andi x v reducesTo_S28672x4096_S_d0_1 h_S_) main_v6 main_c_1
  let main_v8 : IVec S_ 1 := andi main_v3 main_v7
  let main_v9 : FVec F S28672x32 .f32 := Host.absf main_arg2
  let main_cst_2 : FVec F S_ .f32 := constant S_ .f32 0x7F800000#32
  let main_v10 : FVec F S28672x32 .f32 := broadcastInDim S28672x32 ![] bcast_S_S28672x32 main_cst_2
  let main_v11 : IVec S28672x32 1 := cmpf .olt main_v9 main_v10
  let main_c_3 : IVec S_ 1 := constantI S_ 1 1#1
  let main_v12 : IVec S_ 1 := (fun x v => Host.reduce IntOp.andi x v reducesTo_S28672x32_S_d0_1 h_S_) main_v11 main_c_3
  let main_v13 : IVec S_ 1 := andi main_v8 main_v12
  main_v13
-- ==== Kernel.lean ====
abbrev S2048x4096 : Shape := ⟨2, ![2048, 4096]⟩
abbrev S28672x4096 : Shape := ⟨2, ![28672, 4096]⟩
abbrev S28672x32 : Shape := ⟨2, ![28672, 32]⟩
abbrev S2048x28672 : Shape := ⟨2, ![2048, 28672]⟩
abbrev S2048x512 : Shape := ⟨2, ![2048, 512]⟩
abbrev S1792x512 : Shape := ⟨2, ![1792, 512]⟩
abbrev S1792x32 : Shape := ⟨2, ![1792, 32]⟩
abbrev S2048x1792 : Shape := ⟨2, ![2048, 1792]⟩
abbrev S1792x4 : Shape := ⟨2, ![1792, 4]⟩
abbrev S1792x128 : Shape := ⟨2, ![1792, 128]⟩
abbrev S1792x1 : Shape := ⟨2, ![1792, 1]⟩
abbrev S2048x14336 : Shape := ⟨2, ![2048, 14336]⟩

abbrev nBuf : Space → Nat
  | .hbm => 6
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S28672x4096, .f32⟩
  | .hbm, ⟨2, _⟩ => ⟨S28672x32, .f32⟩
  | .hbm, ⟨3, _⟩ => ⟨S2048x28672, .f32⟩
  | .hbm, ⟨4, _⟩ => ⟨S2048x14336, .f32⟩
  | .hbm, ⟨5, _⟩ => ⟨S2048x14336, .f32⟩
  | .local _ .vmem, ⟨0, _⟩ => ⟨S2048x512, .f32⟩
  | .local _ .vmem, ⟨1, _⟩ => ⟨S2048x512, .f32⟩
  | .local _ .vmem, ⟨2, _⟩ => ⟨S1792x512, .f32⟩
  | .local _ .vmem, ⟨3, _⟩ => ⟨S1792x512, .f32⟩
  | .local _ .vmem, ⟨4, _⟩ => ⟨S1792x32, .f32⟩
  | .local _ .vmem, ⟨5, _⟩ => ⟨S1792x32, .f32⟩
  | .local _ .vmem, ⟨6, _⟩ => ⟨S2048x1792, .f32⟩
  | .local _ .vmem, ⟨7, _⟩ => ⟨S2048x1792, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let c0_3 : Index := 0#32
  let arg1 : BitVec 32 := BitVec.ofNat 32 (i 1).val
  let c4_i32 : BitVec 32 := 4#32
  let v9 : BitVec 32 := Scalar.muli arg1 c4_i32
  let v10 : Index := Scalar.indexCast v9
  ![0, v10.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1792x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1792x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x1792_S2048x1792_0_0 : ∀ a, (![0, 0] : Fin 2 → Nat) a + S2048x1792.size a ≤ S2048x1792.size a
  h_S2048x1792 : 0 < S2048x1792.numel
  inb_S1792x512_S1792x512_0_0 : ∀ a, (![0, 0] : Fin 2 → Nat) a + S1792x512.size a ≤ S1792x512.size a
  h_S1792x512 : 0 < S1792x512.numel
  h_S1792x4 : 0 < S1792x4.numel
  slices_S1792x512_o0_0_S1792x128 : S1792x512.Slices ![0, 0] S1792x128
  slices_S1792x4_o0_0_S1792x1 : S1792x4.Slices ![0, 0] S1792x1
  broadcasts_S1792x1_S1792x128 : S1792x1.Broadcasts S1792x128
  slices_S1792x512_o0_128_S1792x128 : S1792x512.Slices ![0, 128] S1792x128
  slices_S1792x4_o0_1_S1792x1 : S1792x4.Slices ![0, 1] S1792x1
  slices_S1792x512_o0_256_S1792x128 : S1792x512.Slices ![0, 256] S1792x128
  slices_S1792x4_o0_2_S1792x1 : S1792x4.Slices ![0, 2] S1792x1
  slices_S1792x512_o0_384_S1792x128 : S1792x512.Slices ![0, 384] S1792x128
  slices_S1792x4_o0_3_S1792x1 : S1792x4.Slices ![0, 3] S1792x1
  concatenates_S1792x128_S1792x128_S1792x128_S1792x128_S1792x512_d1 : Shape.Concatenates [S1792x128, S1792x128, S1792x128, S1792x128] S1792x512 1
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x1792_S2048x1792 : S2048x1792.ShapeCasts S2048x1792
  slices_S2048x28672_S2048x14336_0_0 : S2048x28672.Slices ![0, 0] S2048x14336
  slices_S2048x28672_S2048x14336_0_14336 : S2048x28672.Slices ![0, 14336] S2048x14336
  dot_S2048x512_S1792x512_S2048x1792_1_1_0_0_n_n_wf : DotDims.WF S2048x512 S1792x512 S2048x1792 [1] [1] [0] [0] [] []
  hrank0 : 0 < grid0.rank
  k0_off1_inb : ∀ i : grid0.Coords, ∀ a, (k0_off1 i) a + S1792x4.size a ≤ S1792x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x4096.size a
  hwx0_0 : ∀ i : grid0.Coords, EltTy.bits .f32 = 32 ∨ (Rect.block (s := S2048x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x512.size a ≤ S28672x4096.size a
  hwx0_1 : ∀ i : grid0.Coords, EltTy.bits .f32 = 32 ∨ (Rect.block (s := S28672x4096) S1792x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1792x32.size a ≤ S28672x32.size a
  hwx0_2 : ∀ i : grid0.Coords, EltTy.bits .f32 = 32 ∨ (Rect.block (s := S28672x32) S1792x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1792.size a ≤ S2048x28672.size a
  hwx0_3 : ∀ i : grid0.Coords, EltTy.bits .f32 = 32 ∨ (Rect.block (s := S2048x28672) S2048x1792.size (cc0_transform_3 i) (hinb0_3 i)).WholeWords (EltTy.packing .f32)

variable [Facts₀]

def dot_S2048x512_S1792x512_S2048x1792_1_1_0_0_n_n : DotDims S2048x512 S1792x512 S2048x1792 where
  lhsContracting := [1]
  rhsContracting := [1]
  lhsNonContracting := [0]
  rhsNonContracting := [0]
  lhsBatch := []
  rhsBatch := []
  wf := dot_S2048x512_S1792x512_S2048x1792_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1792x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1792x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1792.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S28672x4096 : Shape := ⟨2, ![28672, 4096]⟩
abbrev S28672x32 : Shape := ⟨2, ![28672, 32]⟩
abbrev S_ : Shape := ⟨0, ![]⟩
abbrev S28672x32x128 : Shape := ⟨3, ![28672, 32, 128]⟩
abbrev S28672x32x1 : Shape := ⟨3, ![28672, 32, 1]⟩
abbrev S4096x28672 : Shape := ⟨2, ![4096, 28672]⟩
abbrev S2048x28672 : Shape := ⟨2, ![2048, 28672]⟩
abbrev S2048x14336 : Shape := ⟨2, ![2048, 14336]⟩

abbrev nBuf : Space → Nat
  | .hbm => 21
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S28672x4096, .f32⟩
  | .hbm, ⟨2, _⟩ => ⟨S28672x32, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S28672x4096, .f32⟩
  | .hbm, ⟨7, _⟩ => ⟨S28672x4096, .f32⟩
  | .hbm, ⟨8, _⟩ => ⟨S_, .f32⟩
  | .hbm, ⟨9, _⟩ => ⟨S28672x4096, .f32⟩
  | .hbm, ⟨10, _⟩ => ⟨S28672x4096, .f32⟩
  | .hbm, ⟨11, _⟩ => ⟨S28672x4096, .f32⟩
  | .hbm, ⟨12, _⟩ => ⟨S28672x32x128, .f32⟩
  | .hbm, ⟨13, _⟩ => ⟨S28672x32x1, .f32⟩
  | .hbm, ⟨14, _⟩ => ⟨S28672x32x128, .f32⟩
  | .hbm, ⟨15, _⟩ => ⟨S28672x32x128, .f32⟩
  | .hbm, ⟨16, _⟩ => ⟨S28672x4096, .f32⟩
  | .hbm, ⟨17, _⟩ => ⟨S4096x28672, .f32⟩
  | .hbm, ⟨18, _⟩ => ⟨S2048x28672, .f32⟩
  | .hbm, ⟨19, _⟩ => ⟨S2048x14336, .f32⟩
  | .hbm, ⟨20, _⟩ => ⟨S2048x14336, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S28672x4096 : S_.BroadcastsInDim S28672x4096 (![] : Fin 0 → Fin S28672x4096.rank)
  shapeCasts_S28672x4096_S28672x32x128 : S28672x4096.ShapeCasts S28672x32x128
  bcast_S28672x32_S28672x32x1_0_1 : S28672x32.BroadcastsInDim S28672x32x1 (![0, 1] : Fin 2 → Fin S28672x32x1.rank)
  bcast_S28672x32x1_S28672x32x128_0_1_2 : S28672x32x1.BroadcastsInDim S28672x32x128 (![0, 1, 2] : Fin 3 → Fin S28672x32x128.rank)
  shapeCasts_S28672x32x128_S28672x4096 : S28672x32x128.ShapeCasts S28672x4096
  transposes_S28672x4096_S4096x28672_1_0 : S28672x4096.Transposes [1, 0] S4096x28672
  slices_S2048x28672_S2048x14336_0_0 : S2048x28672.Slices ![0, 0] S2048x14336
  slices_S2048x28672_S2048x14336_0_14336 : S2048x28672.Slices ![0, 14336] S2048x14336
  dot_S2048x4096_S4096x28672_S2048x28672_1_0_0_1_n_n_wf : DotDims.WF S2048x4096 S4096x28672 S2048x28672 [1] [0] [0] [1] [] []

variable [Facts₀]

def dot_S2048x4096_S4096x28672_S2048x28672_1_0_0_1_n_n : DotDims S2048x4096 S4096x28672 S2048x28672 where
  lhsContracting := [1]
  rhsContracting := [0]
  lhsNonContracting := [0]
  rhsNonContracting := [1]
  lhsBatch := []
  rhsBatch := []
  wf := dot_S2048x4096_S4096x28672_S2048x28672_1_0_0_1_n_n_wf

class Facts : Prop extends Facts₀ where

variable [Facts]
-- ==== Proof.Pieces.lean ====
import proofs.«167223_j11338713661740_1_alg».proof.Proof.Gen.KernelIdeal.Frame
import Idealize.ShloMosaic.Lib.Pipeline.Value
import Idealize.ShloMosaic.Lib.Tactic

/-!
# What one grid point leaves in the output block

The body at grid point `(n, k)` holds a `2048 × 512` block of the activations, a `1792 × 512` block of the
weights, the `1792 × 32` block of all the scales of those weight rows, and the `2048 × 1792` output block of
column tile `n`. It reads the four scale columns `4k … 4k + 3` (one per group of 128 weight columns of this
`K`-tile), and stores `acc + X · deq(W)ᵀ`, where `acc` is the zero block at `k = 0` and what the point before
left otherwise. Both cases are one covering store whose payload is the same pure function of the loads; the only
difference is what the accumulator load reads back.
-/

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- The four scale columns the body reads at grid point `i` out of its `1792 × 32` scales block:
    columns `4·i₁ … 4·i₁ + 3`. -/
def scaleCols (i : grid0.Coords) (x2 : Vec F S1792x32 .f32) : Vec F S1792x4 .f32 :=
  View.ld x2 (Rect.unit (s := S1792x32) (k0_off1 i) S1792x4.size (k0_off1_inb i))

/-- A point that is not the first of its reduction run leaves `xo + X · deq(W)ᵀ` over what it found (`xo`). -/
theorem out_B (c : Dev nD) (i : grid0.Coords) (a2 : Memref sig .tc .vmem S2048x512 .f32) (h2 : a2.IsWhole)
    (a3 : Memref sig .tc .vmem S1792x512 .f32) (h3 : a3.IsWhole) (a4 : Memref sig .tc .vmem S1792x32 .f32) (h4 : a4.IsWhole)
    (a5 : Memref sig .tc .vmem S2048x1792 .f32) (h5 : a5.IsWhole) (hc : ¬cond0_0 i)
    (x0 : Vec F S2048x512 .f32) (x1 : Vec F S1792x512 .f32) (x2 : Vec F S1792x32 .f32) (xo : Vec F S2048x1792 .f32) :
    out0_B_3 c i a2 h2 a3 h3 a4 h4 a5 h5 hc x0 x1 x2 xo = k0_pay2 x1 (scaleCols i x2) x0 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero zero_offsets]
  simp only [View.readAt_eq_ld, h2.read_unread, h3.read_unread, h4.read_unread, h5.read_unread,
    View.ld_unit_zero (S := S2048x512) zero_offsets, View.ld_unit_zero (S := S1792x512) zero_offsets,
    View.ld_unit_zero (S := S2048x1792) zero_offsets]
  rfl

/-- The first point of a reduction run stores the zero block, reads it back, and leaves `0 + X · deq(W)ᵀ`. -/
theorem out_A (c : Dev nD) (i : grid0.Coords) (a2 : Memref sig .tc .vmem S2048x512 .f32) (h2 : a2.IsWhole)
    (a3 : Memref sig .tc .vmem S1792x512 .f32) (h3 : a3.IsWhole) (a4 : Memref sig .tc .vmem S1792x32 .f32) (h4 : a4.IsWhole)
    (a5 : Memref sig .tc .vmem S2048x1792 .f32) (h5 : a5.IsWhole) (hc : cond0_0 i)
    (x0 : Vec F S2048x512 .f32) (x1 : Vec F S1792x512 .f32) (x2 : Vec F S1792x32 .f32) :
    out0_A_3 c i a2 h2 a3 h3 a4 h4 a5 h5 hc x0 x1 x2 = k0_pay2 x1 (scaleCols i x2) x0 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S2048x1792) zero_offsets, View.readCov_unit_zero (S := S2048x1792) _ zero_offsets]
  simp only [View.readAt_eq_ld, h2.read_unread, h3.read_unread, h4.read_unread,
    View.ld_unit_zero (S := S2048x512) zero_offsets, View.ld_unit_zero (S := S1792x512) zero_offsets]
  rfl

end Cert.KernelIdeal.Pieces

end
-- ==== Proof.Spec.lean ====
import Idealize.ShloMosaic.PureOps.Ideal
import Idealize.ShloMosaic.PureOps.Ideal.Laws
import Idealize.ShloMosaic.Lib.ValueIdx

/-!
# A group-quantised linear map as one function of its three arrays

`x` is `2048 × 4096` (tokens by input features), `w` is `28672 × 4096` (output features by input features) and
`s` is `28672 × 32`: one scale per output feature and per group of 128 consecutive input features. A weight is
replaced by its int4 code, the round-to-nearest-even of its clip to `[-8, 7]`, times the scale of its group, and
the result is `x` times the transpose of that matrix:

  `y[p, o] = ∑ₖ x[p, k] · (code(w[o, k]) · s[o, k / 128])`,  `k` over the 4096 input features.

Everything is read over the extended reals, where addition is commutative and associative, so the 4096 terms may
be summed in any grouping; `sum_by_tiles` is the grouping into eight tiles of 512 consecutive features, the one
an accumulation over `K`-tiles produces.
-/

noncomputable section

open scoped BigOperators
open Idealize.ShloMosaic Idealize.ShloMosaic.ValueIdx

namespace GroupQuant

/-- The int4 code of a weight, as an extended real: clip to `[-8, 7]` (`max` with `-8` first, then `min` with `7`),
    then round to nearest, ties to even. -/
def code (v : Ideal .f32) : Ideal .f32 :=
  FloatOps.roundeven
    (FloatOps.minimumf (FloatOps.ofBits .f32 0x40E00000#32) (FloatOps.maximumf (FloatOps.ofBits .f32 0xC1000000#32) v))

/-- A matrix entry at natural-number coordinates (zero outside the matrix, which no use below reaches): sums over
    tiles name their columns by arithmetic on naturals, and this keeps the bounds out of the summands. -/
def entry {n0 n1 : Nat} (a : (⟨2, ![n0, n1]⟩ : Shape).Idx → Ideal .f32) (r c : ℕ) : Ideal .f32 :=
  if h : r < n0 ∧ c < n1 then a (ix2 ⟨r, h.1⟩ ⟨c, h.2⟩) else 0

theorem entry_of_lt {n0 n1 : Nat} (a : (⟨2, ![n0, n1]⟩ : Shape).Idx → Ideal .f32) {r c : ℕ} (hr : r < n0) (hc : c < n1) :
    entry a r c = a (ix2 ⟨r, hr⟩ ⟨c, hc⟩) := dif_pos ⟨hr, hc⟩

/-- One term of the contraction: activation `(p, k)` times the dequantised weight `(o, k)`, which is the weight's
    code times the scale of row `o` and column group `k / 128`. -/
def term (x : (⟨2, ![2048, 4096]⟩ : Shape).Idx → Ideal .f32) (w : (⟨2, ![28672, 4096]⟩ : Shape).Idx → Ideal .f32)
    (s : (⟨2, ![28672, 32]⟩ : Shape).Idx → Ideal .f32) (p o k : ℕ) : Ideal .f32 :=
  entry x p k * (code (entry w o k) * entry s o (k / 128))

/-- The whole result, `2048 × 28672`: entry `(p, o)` is the sum of the 4096 terms. -/
def linear (x : (⟨2, ![2048, 4096]⟩ : Shape).Idx → Ideal .f32) (w : (⟨2, ![28672, 4096]⟩ : Shape).Idx → Ideal .f32)
    (s : (⟨2, ![28672, 32]⟩ : Shape).Idx → Ideal .f32) : (⟨2, ![2048, 28672]⟩ : Shape).Idx → Ideal .f32 :=
  fun i => ∑ k : Fin 4096, term x w s (i 0).val (i 1).val k.val

/-- A sum over 4096 consecutive naturals is the sum, over eight tiles, of the sums over each tile's 512: a
    re-grouping, valid in any commutative monoid (no cancellation, so also with infinite terms). -/
theorem sum_by_tiles {M : Type*} [AddCommMonoid M] (f : ℕ → M) :
    ∑ k : Fin 4096, f k.val = ∑ t ∈ Finset.range 8, ∑ j : Fin 512, f (512 * t + j.val) := by
  rw [Finset.sum_range (fun t => ∑ j : Fin 512, f (512 * t + j.val))]
  show ∑ k : Fin (8 * 512), f k.val = _
  rw [← Equiv.sum_comp finProdFinEquiv (fun k : Fin (8 * 512) => f k.val), Fintype.sum_prod_type]
  refine Finset.sum_congr rfl fun a _ => Finset.sum_congr rfl fun b _ => ?_
  rw [finProdFinEquiv_apply_val, Nat.add_comm]

end GroupQuant

end
-- ==== Proof.Payload.lean ====
import proofs.«167223_j11338713661740_1_alg».proof.Proof.Gen.KernelIdeal.Skeleton
import proofs.«167223_j11338713661740_1_alg».proof.Proof.Spec
import Idealize.ShloMosaic.Lib.Pipeline.Value
import Idealize.ShloMosaic.Lib.ValueIdx
import Idealize.ShloMosaic.PureOps.Ideal.Laws

/-!
# The body's stored value, entry by entry

The value one grid point stores is `acc + X · Dᵀ` where `X` is the `2048 × 512` activation tile and `D` the
`1792 × 512` dequantised weight tile: the tile's int4 codes, four groups of 128 columns, each group multiplied by
its own column of the `1792 × 4` scales read for this tile, and the four products laid side by side again. Over the
extended reals the two narrowings to bf16 are the identity and the matrix product into a zero accumulator is the
plain sum of products, so entry `(p, q)` of the stored block is

  `acc[p, q] + ∑ⱼ X[p, j] · (code(W[q, j]) · S[q, j / 128])`,  `j` over the tile's 512 columns.
-/

noncomputable section

open scoped BigOperators
open Idealize.ShloMosaic Idealize.ShloMosaic.ValueIdx GroupQuant

namespace Cert.KernelIdeal.Payload

open Cert.KernelIdeal Cert.KernelIdeal.Gen

/-- The int4 codes of a weight tile, entry by entry. -/
def codes (W : Vec Ideal S1792x512 .f32) : FVec Ideal S1792x512 .f32 :=
  roundeven (minimumf (broadcast S1792x512 (Scalar.ofBits .f32 0x40E00000#32))
    (maximumf (broadcast S1792x512 (Scalar.ofBits .f32 0xC1000000#32)) W))

theorem codes_apply (W : Vec Ideal S1792x512 .f32) (i : S1792x512.Idx) : codes W i = code (W i) := rfl

/-- Group `g` of the dequantised tile: columns `128 g … 128 g + 127` of the codes, each row times that row's
    scale in column `g` of the scales read for the tile. -/
theorem group_apply (C : FVec Ideal S1792x512 .f32) (S : FVec Ideal S1792x4 .f32) (g : ℕ) (hg : g < 4)
    (o1 o2 : Fin 2 → ℕ) (ho1 : o1 = ![0, 128 * g]) (ho2 : o2 = ![0, g])
    (h1 : S1792x512.Slices o1 S1792x128) (h2 : S1792x4.Slices o2 S1792x1) (q : Fin 1792) (l : Fin 128)
    (j : Fin 512) (hj : j.val = 128 * g + l.val) (γ : Fin 4) (hγ : γ.val = g) :
    mulf (extractStridedSlice S1792x128 o1 C h1)
        (broadcastTo S1792x128 (extractStridedSlice S1792x1 o2 S h2) broadcasts_S1792x1_S1792x128) (ix2 q l)
      = C (ix2 q j) * S (ix2 q γ) := by
  subst ho1 ho2
  rw [mulf_apply]
  congr 1
  · refine extractStridedSlice_apply _ C h1 (ix2 q l) _ fun a => ?_
    match a with
    | ⟨0, _⟩ => show q.val = 0 + q.val; omega
    | ⟨1, _⟩ => exact hj
  · refine (broadcastTo_apply _ broadcasts_S1792x1_S1792x128 (ix2 q l) (ix2 q (0 : Fin 1)) fun a => ?_).trans ?_
    · match a with
      | ⟨0, _⟩ => show q.val = if (1792 : ℕ) = 1 then 0 else q.val; rw [if_neg (by decide)]
      | ⟨1, _⟩ => show (0 : ℕ) = if (1 : ℕ) = 1 then 0 else l.val; rw [if_pos rfl]
    · refine extractStridedSlice_apply _ S h2 (ix2 q (0 : Fin 1)) _ fun a => ?_
      match a with
      | ⟨0, _⟩ => show q.val = 0 + q.val; omega
      | ⟨1, _⟩ => show γ.val = g + 0; omega

/-- The dequantised weight tile as the body builds it: the four groups side by side. -/
def dequant (W : Vec Ideal S1792x512 .f32) (S : Vec Ideal S1792x4 .f32) : FVec Ideal S1792x512 .f32 :=
  concatenate S1792x512 1
    [⟨S1792x128, mulf (extractStridedSlice S1792x128 ![0, 0] (codes W) slices_S1792x512_o0_0_S1792x128)
        (broadcastTo S1792x128 (extractStridedSlice S1792x1 ![0, 0] S slices_S1792x4_o0_0_S1792x1) broadcasts_S1792x1_S1792x128)⟩,
     ⟨S1792x128, mulf (extractStridedSlice S1792x128 ![0, 128] (codes W) slices_S1792x512_o0_128_S1792x128)
        (broadcastTo S1792x128 (extractStridedSlice S1792x1 ![0, 1] S slices_S1792x4_o0_1_S1792x1) broadcasts_S1792x1_S1792x128)⟩,
     ⟨S1792x128, mulf (extractStridedSlice S1792x128 ![0, 256] (codes W) slices_S1792x512_o0_256_S1792x128)
        (broadcastTo S1792x128 (extractStridedSlice S1792x1 ![0, 2] S slices_S1792x4_o0_2_S1792x1) broadcasts_S1792x1_S1792x128)⟩,
     ⟨S1792x128, mulf (extractStridedSlice S1792x128 ![0, 384] (codes W) slices_S1792x512_o0_384_S1792x128)
        (broadcastTo S1792x128 (extractStridedSlice S1792x1 ![0, 3] S slices_S1792x4_o0_3_S1792x1) broadcasts_S1792x1_S1792x128)⟩]
    concatenates_S1792x128_S1792x128_S1792x128_S1792x128_S1792x512_d1

/-- Entry `(q, j)` of the dequantised tile: the code of weight `(q, j)` times the scale of row `q`, group `j / 128`. -/
theorem dequant_apply (W : Vec Ideal S1792x512 .f32) (S : Vec Ideal S1792x4 .f32) (q : Fin 1792) (j : Fin 512) :
    dequant W S (ix2 q j) = code (W (ix2 q j)) * S (ix2 q ⟨j.val / 128, by have := j.isLt; omega⟩) := by
  have hj := j.isLt
  unfold dequant
  obtain h | h | h | h : j.val / 128 = 0 ∨ j.val / 128 = 1 ∨ j.val / 128 = 2 ∨ j.val / 128 = 3 := by omega
  · refine (concatenate_apply_piece (1 : Fin 2) _ _ (ix2 q j) 0 (by simp) S1792x128 _ rfl rfl 0 rfl
      (ix2 q ⟨j.val - 128 * 0, by omega⟩) (fun b hb => ?_) ?_).trans ?_
    · match b with
      | ⟨0, _⟩ => rfl
      | ⟨1, _⟩ => exact absurd rfl hb
    · show 0 + (j.val - 128 * 0) = j.val; omega
    · rw [← codes_apply]
      exact group_apply (codes W) S 0 (by omega) _ _ rfl rfl _ _ q _ j (by dsimp only; omega) _ (by dsimp only; omega)
  · refine (concatenate_apply_piece (1 : Fin 2) _ _ (ix2 q j) 1 (by simp) S1792x128 _ rfl rfl 128 rfl
      (ix2 q ⟨j.val - 128 * 1, by omega⟩) (fun b hb => ?_) ?_).trans ?_
    · match b with
      | ⟨0, _⟩ => rfl
      | ⟨1, _⟩ => exact absurd rfl hb
    · show 128 + (j.val - 128 * 1) = j.val; omega
    · rw [← codes_apply]
      exact group_apply (codes W) S 1 (by omega) _ _ rfl rfl _ _ q _ j (by dsimp only; omega) _ (by dsimp only; omega)
  · refine (concatenate_apply_piece (1 : Fin 2) _ _ (ix2 q j) 2 (by simp) S1792x128 _ rfl rfl 256 rfl
      (ix2 q ⟨j.val - 128 * 2, by omega⟩) (fun b hb => ?_) ?_).trans ?_
    · match b with
      | ⟨0, _⟩ => rfl
      | ⟨1, _⟩ => exact absurd rfl hb
    · show 256 + (j.val - 128 * 2) = j.val; omega
    · rw [← codes_apply]
      exact group_apply (codes W) S 2 (by omega) _ _ rfl rfl _ _ q _ j (by dsimp only; omega) _ (by dsimp only; omega)
  · refine (concatenate_apply_piece (1 : Fin 2) _ _ (ix2 q j) 3 (by simp) S1792x128 _ rfl rfl 384 rfl
      (ix2 q ⟨j.val - 128 * 3, by omega⟩) (fun b hb => ?_) ?_).trans ?_
    · match b with
      | ⟨0, _⟩ => rfl
      | ⟨1, _⟩ => exact absurd rfl hb
    · show 384 + (j.val - 128 * 3) = j.val; omega
    · rw [← codes_apply]
      exact group_apply (codes W) S 3 (by omega) _ _ rfl rfl _ _ q _ j (by dsimp only; omega) _ (by dsimp only; omega)

/-! ## The matrix product: rows of `X` against rows of `D` -/

theorem lhs_axis0 (i : S2048x1792.Idx) (k : dot_S2048x512_S1792x512_S2048x1792_1_1_0_0_n_n.contr.Idx) :
    (dot_S2048x512_S1792x512_S2048x1792_1_1_0_0_n_n.lhsIdx i k 0).val = (i 0).val := by
  unfold DotDims.lhsIdx
  rw [dif_neg (show ¬(0 : Fin S2048x512.rank) ∈ dot_S2048x512_S1792x512_S2048x1792_1_1_0_0_n_n.lhsBatch by decide), dif_pos (show (0 : Fin S2048x512.rank) ∈ dot_S2048x512_S1792x512_S2048x1792_1_1_0_0_n_n.lhsNonContracting by decide)]
  rfl
theorem lhs_axis1 (i : S2048x1792.Idx) (k : dot_S2048x512_S1792x512_S2048x1792_1_1_0_0_n_n.contr.Idx) :
    (dot_S2048x512_S1792x512_S2048x1792_1_1_0_0_n_n.lhsIdx i k 1).val = (k ⟨0, by decide⟩).val :=
  dot_S2048x512_S1792x512_S2048x1792_1_1_0_0_n_n.lhsIdx_val_of_single rfl i k
theorem rhs_axis0 (i : S2048x1792.Idx) (k : dot_S2048x512_S1792x512_S2048x1792_1_1_0_0_n_n.contr.Idx) :
    (dot_S2048x512_S1792x512_S2048x1792_1_1_0_0_n_n.rhsIdx i k 0).val = (i 1).val := by
  unfold DotDims.rhsIdx
  rw [dif_neg (show ¬(0 : Fin S1792x512.rank) ∈ dot_S2048x512_S1792x512_S2048x1792_1_1_0_0_n_n.rhsBatch by decide), dif_pos (show (0 : Fin S1792x512.rank) ∈ dot_S2048x512_S1792x512_S2048x1792_1_1_0_0_n_n.rhsNonContracting by decide)]
  rfl
theorem rhs_axis1 (i : S2048x1792.Idx) (k : dot_S2048x512_S1792x512_S2048x1792_1_1_0_0_n_n.contr.Idx) :
    (dot_S2048x512_S1792x512_S2048x1792_1_1_0_0_n_n.rhsIdx i k 1).val = (k ⟨0, by decide⟩).val :=
  dot_S2048x512_S1792x512_S2048x1792_1_1_0_0_n_n.rhsIdx_val_of_single rfl i k

/-- The product into a zero accumulator, at `(p, q)`: row `p` of the left operand against row `q` of the right. -/
theorem product_apply (X : FVec Ideal S2048x512 .bf16) (Dq : FVec Ideal S1792x512 .bf16) (p : Fin 2048) (q : Fin 1792) :
    matmul dot_S2048x512_S1792x512_S2048x1792_1_1_0_0_n_n none X Dq (constant S2048x1792 .f32 0x00000000#32) (ix2 p q)
      = ∑ j : Fin 512, X (ix2 p j) * Dq (ix2 q j) := by
  simp only [matmul]
  rw [Ideal.matmul_constant_zero_apply, ← Equiv.sum_comp (contrEquiv1 dot_S2048x512_S1792x512_S2048x1792_1_1_0_0_n_n 512 rfl rfl).symm]
  refine Finset.sum_congr rfl fun k _ => ?_
  have hk := contrEquiv1_symm_val dot_S2048x512_S1792x512_S2048x1792_1_1_0_0_n_n 512 rfl rfl k
  have el : dot_S2048x512_S1792x512_S2048x1792_1_1_0_0_n_n.lhsIdx (ix2 p q) ((contrEquiv1 dot_S2048x512_S1792x512_S2048x1792_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S2048x512_S1792x512_S2048x1792_1_1_0_0_n_n.rhsIdx (ix2 p q) ((contrEquiv1 dot_S2048x512_S1792x512_S2048x1792_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- The stored value is the accumulator plus the product of the activation tile with the dequantised tile. -/
theorem pay2_eq (W : Vec Ideal S1792x512 .f32) (S : Vec Ideal S1792x4 .f32) (X : Vec Ideal S2048x512 .f32)
    (acc : Vec Ideal S2048x1792 .f32) :
    k0_pay2 (F := Ideal) W S X acc
      = addf (shapeCast S2048x1792 acc shapeCasts_S2048x1792_S2048x1792)
          (matmul dot_S2048x512_S1792x512_S2048x1792_1_1_0_0_n_n none (truncf .bf16 X bitsLt_bf16_f32) (truncf .bf16 (dequant W S) bitsLt_bf16_f32)
            (constant S2048x1792 .f32 0x00000000#32)) := rfl

/-- Entry `(p, q)` of the stored block. -/
theorem pay2_apply (W : Vec Ideal S1792x512 .f32) (S : Vec Ideal S1792x4 .f32) (X : Vec Ideal S2048x512 .f32)
    (acc : Vec Ideal S2048x1792 .f32) (p : Fin 2048) (q : Fin 1792) :
    k0_pay2 (F := Ideal) W S X acc (ix2 p q)
      = acc (ix2 p q) + ∑ j : Fin 512, X (ix2 p j) * (code (W (ix2 q j)) * S (ix2 q ⟨j.val / 128, by have := j.isLt; omega⟩)) := by
  rw [pay2_eq, addf_apply, shapeCast_self, product_apply]
  refine congrArg (acc (ix2 p q) + ·) (Finset.sum_congr rfl fun j _ => ?_)
  rw [truncf_apply, truncf_apply, dequant_apply]

/-- The zero block stored at the first point of a run is zero at every entry. -/
theorem pay1_apply (i : S2048x1792.Idx) : k0_pay1 (F := Ideal) i = 0 := by
  show Ideal.ofBits .f32 0x00000000#32 = 0
  exact Ideal.ofBits_zero_f32

end Cert.KernelIdeal.Payload

end
-- ==== Proof.Tiles.lean ====
import proofs.«167223_j11338713661740_1_alg».proof.Proof.Pieces
import proofs.«167223_j11338713661740_1_alg».proof.Proof.Payload
import Idealize.ShloMosaic.Lib.Pipeline.Value
import Idealize.ShloMosaic.Lib.ValueIdx

/-!
# The tiles a grid point reads, as entries of the argument arrays

Grid point `t = 8 n + k` (`n` the column tile of the output, `k` the `K`-tile) is handed columns `512 k …` of the
activations, rows `1792 n …` and columns `512 k …` of the weights, and rows `1792 n …` of all 32 scale columns; of
the latter the body reads columns `4 k … 4 k + 3`. The output block is rows `0 … 2047`, columns `1792 n …`.
-/

noncomputable section

open scoped BigOperators
open Idealize.ShloMosaic Idealize.ShloMosaic.TcCoe Idealize.SL.Sem Idealize.ShloMosaic.ValueIdx GroupQuant
open Idealize.ShloMosaic.Pipeline (Dat)

namespace Cert.KernelIdeal.Tiles

open Cert.KernelIdeal Cert.KernelIdeal.Gen Cert.KernelIdeal.Pieces Cert.KernelIdeal.Payload

variable (m : (ℓ : Loc nD τ sig) → Buf (Elt Ideal) ℓ)

/-- The three argument arrays as the region finds them (the program has no host operation before the region, so they
    are the launch contents), and the three input tiles of grid point `t`, each at its literal shape. -/
abbrev xarr (c : Dev nD) : Vec Ideal S2048x4096 .f32 := V m c main_arg0
abbrev warr (c : Dev nD) : Vec Ideal S28672x4096 .f32 := V m c main_arg1
abbrev sarr (c : Dev nD) : Vec Ideal S28672x32 .f32 := V m c main_arg2
abbrev xblk (c : Dev nD) (t : Fin cfg0.N) : Vec Ideal S2048x512 .f32 := iblk m c 0 t
abbrev wblk (c : Dev nD) (t : Fin cfg0.N) : Vec Ideal S1792x512 .f32 := iblk m c 1 t
abbrev sblk (c : Dev nD) (t : Fin cfg0.N) : Vec Ideal S1792x32 .f32 := iblk m c 2 t

/-- Where grid point `t = 8 n + k` sits: the activation tile is block `(0, k)`, the weight tile block `(n, k)`, the
    scales tile block `(n, 0)`, the output block `(0, n)`, and the body's second grid coordinate is `k`; `n = t / 8`
    and `k = t % 8`, checked at each of the 128 points. -/
theorem point_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val / 8
    ∧ (grid0.coords t 1).val = t.val % 8 :=
  (by decide +kernel : ∀ t : Fin grid0.N, _)

/-- The activation tile: entry `(p, j)` is activation `(p, 512 k + j)`. -/
theorem xblk_apply (c : Dev nD) (t : Fin cfg0.N) (p : Fin 2048) (j : Fin 512) :
    xblk m c t (ix2 p j) = entry (xarr m c) p.val (512 * (t.val % 8) + j.val) := by
  have hp := p.isLt; have hj := j.isLt
  rw [entry_of_lt _ hp (by omega)]
  obtain ⟨e0, e1, -⟩ := point_facts t
  show V m c main_arg0 (((cfg0.win 0).blk t).view.emb (ix2 p j)) = V m c main_arg0 _
  congr 1
  funext a; apply Fin.ext
  match a with
  | ⟨0, _⟩ => show win0_0.index t (0 : Fin 2) * 2048 + 1 * p.val = p.val; omega
  | ⟨1, _⟩ => show win0_0.index t (1 : Fin 2) * 512 + 1 * j.val = 512 * (t.val % 8) + j.val; omega

/-- The weight tile: entry `(q, j)` is weight `(1792 n + q, 512 k + j)`. -/
theorem wblk_apply (c : Dev nD) (t : Fin cfg0.N) (q : Fin 1792) (j : Fin 512) :
    wblk m c t (ix2 q j) = entry (warr m c) (1792 * (t.val / 8) + q.val) (512 * (t.val % 8) + j.val) := by
  have hq := q.isLt; have hj := j.isLt
  have hN : t.val < 128 := lt_of_lt_of_eq t.isLt (show cfg0.N = 128 from N_0)
  rw [entry_of_lt _ (by omega) (by omega)]
  obtain ⟨-, -, e0, e1, -⟩ := point_facts t
  show V m c main_arg1 (((cfg0.win 1).blk t).view.emb (ix2 q j)) = V m c main_arg1 _
  congr 1
  funext a; apply Fin.ext
  match a with
  | ⟨0, _⟩ => show win0_1.index t (0 : Fin 2) * 1792 + 1 * q.val = 1792 * (t.val / 8) + q.val; omega
  | ⟨1, _⟩ => show win0_1.index t (1 : Fin 2) * 512 + 1 * j.val = 512 * (t.val % 8) + j.val; omega

/-- The scales tile: entry `(q, γ)` is scale `(1792 n + q, γ)`, all 32 groups of those rows. -/
theorem sblk_apply (c : Dev nD) (t : Fin cfg0.N) (q : Fin 1792) (γ : Fin 32) :
    sblk m c t (ix2 q γ) = entry (sarr m c) (1792 * (t.val / 8) + q.val) γ.val := by
  have hq := q.isLt; have hγ := γ.isLt
  have hN : t.val < 128 := lt_of_lt_of_eq t.isLt (show cfg0.N = 128 from N_0)
  rw [entry_of_lt _ (by omega) hγ]
  obtain ⟨-, -, -, -, e0, e1, -⟩ := point_facts t
  show V m c main_arg2 (((cfg0.win 2).blk t).view.emb (ix2 q γ)) = V m c main_arg2 _
  congr 1
  funext a; apply Fin.ext
  match a with
  | ⟨0, _⟩ => show win0_2.index t (0 : Fin 2) * 1792 + 1 * q.val = 1792 * (t.val / 8) + q.val; omega
  | ⟨1, _⟩ => show win0_2.index t (1 : Fin 2) * 32 + 1 * γ.val = γ.val; omega

/-- The four columns the body reads of it: local group `γ` is group `4 k + γ`, the group of feature `512 k + 128 γ`. -/
theorem scaleCols_apply (i : grid0.Coords) (S : Vec Ideal S1792x32 .f32) (q : Fin 1792) (γ : Fin 4) (γ' : Fin 32)
    (h : γ'.val = 4 * (i 1).val + γ.val) : scaleCols i S (ix2 q γ) = S (ix2 q γ') := by
  unfold scaleCols
  show S ((Rect.unit (s := S1792x32) (k0_off1 i) S1792x4.size (k0_off1_inb i)).idx (ix2 q γ)) = _
  congr 1
  funext a; apply Fin.ext
  have e := k0_off1_eq i
  match a with
  | ⟨0, _⟩ => show k0_off1 i 0 + 1 * q.val = q.val; rw [e]; show 0 + 1 * q.val = q.val; omega
  | ⟨1, _⟩ => show k0_off1 i 1 + 1 * γ.val = γ'.val; rw [e, h]; show 4 * (i 1).val + 1 * γ.val = _; omega

end Cert.KernelIdeal.Tiles

end
-- ==== Proof.Accumulate.lean ====
import proofs.«167223_j11338713661740_1_alg».proof.Proof.Tiles
import Idealize.ShloMosaic.Lib.Pipeline.Value
import Idealize.ShloMosaic.Lib.ValueIdx

/-!
# The accumulation over the eight K-tiles, and the array it leaves

For a fixed column tile `n` the output block is visited at the eight consecutive grid points `8 n … 8 n + 7`: reset
to zero and added into at the first, added into at the others, written back after the last. Each visit adds, at
block entry `(p, q)`, the 512 terms of that point's `K`-tile for output column `1792 n + q`. So the block written
back holds `0 +` the sum over the eight tiles of those partial sums, which is the whole sum of 4096 terms: the value
of the group-quantised linear map at `(p, 1792 n + q)`. The sixteen blocks written back tile the `2048 × 28672`
array.
-/

noncomputable section

open scoped BigOperators
open Idealize.ShloMosaic Idealize.ShloMosaic.TcCoe Idealize.SL.Sem Idealize.ShloMosaic.ValueIdx GroupQuant
open Idealize.ShloMosaic.Pipeline (Dat)

namespace Cert.KernelIdeal.Accumulate

open Cert.KernelIdeal Cert.KernelIdeal.Gen Cert.KernelIdeal.Pieces Cert.KernelIdeal.Payload Cert.KernelIdeal.Tiles

variable (m : (ℓ : Loc nD τ sig) → Buf (Elt Ideal) ℓ)

/-- What grid point `t` adds at block entry `y`: the 512 terms of `K`-tile `t % 8` for output column
    `1792 (t / 8) + y₁`. -/
def addend (c : Dev nD) (t : ℕ) (y : S2048x1792.Idx) : Ideal .f32 :=
  ∑ j : Fin 512, term (xarr m c) (warr m c) (sarr m c) (y 0).val (1792 * (t / 8) + (y 1).val) (512 * (t % 8) + j.val)

/-- What the body stores at point `n` over an accumulator block. -/
def stepAt (c : Dev nD) (n : ℕ) (h : n < cfg0.N) (acc : S2048x1792.Idx → Ideal .f32) : S2048x1792.Idx → Ideal .f32 :=
  k0_pay2 (F := Ideal) (wblk m c ⟨n, h⟩) (scaleCols (grid0.coords ⟨n, h⟩) (sblk m c ⟨n, h⟩)) (xblk m c ⟨n, h⟩) acc

/-- It is the accumulator plus the point's addend, entry by entry. -/
theorem stepAt_apply (c : Dev nD) (n : ℕ) (h : n < cfg0.N) (acc : S2048x1792.Idx → Ideal .f32) (y : S2048x1792.Idx) :
    stepAt m c n h acc y = acc y + addend m c n y := by
  obtain ⟨p, q, rfl⟩ : ∃ (p : Fin 2048) (q : Fin 1792), y = ix2 p q := ⟨y 0, y 1, eq_ix2 y⟩
  unfold stepAt addend
  rw [pay2_apply]
  refine congrArg (acc (ix2 p q) + ·) (Finset.sum_congr rfl fun j _ => ?_)
  have hj := j.isLt
  obtain ⟨-, -, -, -, -, -, -, -, ek⟩ := point_facts ⟨n, h⟩
  have e : (512 * (n % 8) + j.val) / 128 = 4 * (n % 8) + j.val / 128 := by omega
  rw [xblk_apply, wblk_apply,
    scaleCols_apply (grid0.coords ⟨n, h⟩) (sblk m c ⟨n, h⟩) q ⟨j.val / 128, by omega⟩ ⟨4 * (n % 8) + j.val / 128, by omega⟩
      (by dsimp only; rw [ek]),
    sblk_apply]
  show _ = entry (xarr m c) p.val (512 * (n % 8) + j.val)
    * (code (entry (warr m c) (1792 * (n / 8) + q.val) (512 * (n % 8) + j.val))
      * entry (sarr m c) (1792 * (n / 8) + q.val) ((512 * (n % 8) + j.val) / 128))
  rw [e]

/-- At the first point of a run the block is the step over the zero block; -/
theorem outs_reset (c : Dev nD) (n : ℕ) (h : n < cfg0.N) (h0 : n % 8 = 0) :
    outsAt0 m c n h = stepAt m c n h (k0_pay1 (F := Ideal)) := by
  rw [outsAt0_A m c ⟨n, h⟩ h0]
  exact out_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) ((hcond0_0 ⟨n, h⟩).mpr h0)
    (iblk m c 0 ⟨n, h⟩) (iblk m c 1 ⟨n, h⟩) (iblk m c 2 ⟨n, h⟩)

/-- at every other point it is the step over what the point before left. -/
theorem outs_step (c : Dev nD) (n : ℕ) (h : n + 1 < cfg0.N) (h0 : ¬(n + 1) % 8 = 0) :
    outsAt0 m c (n + 1) h = stepAt m c (n + 1) h (outsAt0 m c n (Nat.lt_of_succ_lt h)) := by
  rw [outsAt0_B m c ⟨n + 1, h⟩ h0]
  exact out_B (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hh => h0 ((hcond0_0 ⟨n + 1, h⟩).mp hh))
    (iblk m c 0 ⟨n + 1, h⟩) (iblk m c 1 ⟨n + 1, h⟩) (iblk m c 2 ⟨n + 1, h⟩) (outsAt0 m c n (Nat.lt_of_succ_lt h))

/-- So at the last point of a run the block is zero plus the eight addends of the run. -/
theorem outs_last (c : Dev nD) (t : ℕ) (ht : t < cfg0.N) (h7 : t % 8 = 7) (y : S2048x1792.Idx) :
    outsAt0 m c t ht y = 0 + ∑ s ∈ Finset.range 8, addend m c (8 * (t / 8) + s) y := by
  have h' : 8 * (t / 8) + t % 8 < cfg0.N := by omega
  rw [Pipeline.eq_accAt_of_mod (outsAt0 m c) 8 (fun n h => stepAt m c n h (k0_pay1 (F := Ideal)))
    (fun n h acc => stepAt m c n h acc) (outs_reset m c) (outs_step m c) (by omega) t ht h']
  have key := Pipeline.accAt_add_apply (fun n h => stepAt m c n h (k0_pay1 (F := Ideal)))
    (fun n h acc => stepAt m c n h acc) (fun _ => (0 : Ideal .f32)) (addend m c) (8 * (t / 8)) 7
    (fun h i => by rw [stepAt_apply, pay1_apply]) (fun n h acc i _ _ => stepAt_apply m c n h acc i)
    (t % 8) (by omega) h' y
  rw [key, h7]

/-- What the last point of a run writes back is its block of the group-quantised linear map. -/
theorem flushed_eq (c : Dev nD) (t : Fin cfg0.N) (hf : (cfg0.win 3).flush t = true) :
    (dats m 0 c).flushed 3 t
      = ((cfg0.win 3).blk t).view.read (Elt Ideal) (linear (xarr m c) (warr m c) (sarr m c)) := by
  have h7 : t.val % 8 = 7 := (flush0_3 t).mp hf
  have hN : t.val < 128 := lt_of_lt_of_eq t.isLt (show cfg0.N = 128 from N_0)
  show (cfg0.win 3).cut (grid0.coords t) ((dats m 0 c).after 3 t) = _
  rw [after0_3]
  funext y
  show outsAt0 m c t.val t.isLt y = linear (xarr m c) (warr m c) (sarr m c) (((cfg0.win 3).blk t).view.emb y)
  obtain ⟨-, -, -, -, -, -, e0, e1, -⟩ := point_facts t
  have hy0 : (y 0).val < 2048 := (y 0).isLt
  have hy1 : (y 1).val < 1792 := (y 1).isLt
  have r0 : ((((cfg0.win 3).blk t).view.emb y) 0).val = (y 0).val := by
    show win0_3.index t (0 : Fin 2) * 2048 + 1 * (y 0).val = (y 0).val; omega
  have r1 : ((((cfg0.win 3).blk t).view.emb y) 1).val = 1792 * (t.val / 8) + (y 1).val := by
    show win0_3.index t (1 : Fin 2) * 1792 + 1 * (y 1).val = 1792 * (t.val / 8) + (y 1).val; omega
  rw [outs_last m c t.val t.isLt h7 y, zero_add]
  unfold linear
  rw [r0, r1]
  refine ((sum_by_tiles fun k => term (xarr m c) (warr m c) (sarr m c) (y 0).val (1792 * (t.val / 8) + (y 1).val) k).trans ?_).symm
  refine Finset.sum_congr rfl fun s hs => ?_
  have hs8 : s < 8 := Finset.mem_range.mp hs
  unfold addend
  refine Finset.sum_congr rfl fun j _ => ?_
  have d1 : (8 * (t.val / 8) + s) / 8 = t.val / 8 := by omega
  have d2 : (8 * (t.val / 8) + s) % 8 = s := by omega
  rw [d1, d2]

/-- An index of the result array lies in point `t`'s output block iff each coordinate lies in the block's range. -/
theorem mem_blk (t : Fin cfg0.N) (i : S2048x28672.Idx) :
    i ∈ ((cfg0.win 3).blk t).view.set ↔ ∀ a : Fin 2, win0_3.index t a * S2048x1792.size a ≤ (i a).val
      ∧ (i a).val < win0_3.index t a * S2048x1792.size a + S2048x1792.size a := by
  show i ∈ ((View.whole main_v0).slice (win0_3.rect t)).set ↔ _
  rw [View.set_slice_whole, Rect.mem_set_unit]
  exact Iff.rfl

/-- The result array after the region: the sixteen written-back blocks tile it (column `o` lies in the block of
    column tile `o / 1792`, written back at point `8 (o / 1792) + 7`), so it holds the whole map. -/
theorem final (c : Dev nD) : (dats m 0 c).arrAt 3 cfg0.N = linear (xarr m c) (warr m c) (sarr m c) :=
  (dats m 0 c).arrAt_eq_of_cover 3 (linear (xarr m c) (warr m c) (sarr m c)) (flushed_eq m c) fun i => by
    have hi0 : (i 0).val < 2048 := (i 0).isLt
    have hi1 : (i 1).val < 28672 := (i 1).isLt
    have hlt : 8 * ((i 1).val / 1792) + 7 < cfg0.N := by rw [show cfg0.N = 128 from N_0]; omega
    refine ⟨⟨8 * ((i 1).val / 1792) + 7, hlt⟩, (flush0_3 _).mpr (by dsimp only; omega), ?_⟩
    rw [mem_blk]
    obtain ⟨-, -, -, -, -, -, e0, e1, -⟩ := point_facts ⟨8 * ((i 1).val / 1792) + 7, hlt⟩
    dsimp only at e1
    intro a
    match a with
    | ⟨0, _⟩ =>
      show win0_3.index ⟨8 * ((i 1).val / 1792) + 7, hlt⟩ (0 : Fin 2) * 2048 ≤ (i 0).val
        ∧ (i 0).val < win0_3.index ⟨8 * ((i 1).val / 1792) + 7, hlt⟩ (0 : Fin 2) * 2048 + 2048
      omega
    | ⟨1, _⟩ =>
      show win0_3.index ⟨8 * ((i 1).val / 1792) + 7, hlt⟩ (1 : Fin 2) * 1792 ≤ (i 1).val
        ∧ (i 1).val < win0_3.index ⟨8 * ((i 1).val / 1792) + 7, hlt⟩ (1 : Fin 2) * 1792 + 1792
      omega

end Cert.KernelIdeal.Accumulate

end
-- ==== Proof.Result.lean ====
import proofs.«167223_j11338713661740_1_alg».proof.Proof.Accumulate
import Idealize.ShloMosaic.Lib.Pipeline.Value
import Idealize.ShloMosaic.Lib.StableHlo.Run
import Idealize.ShloMosaic.Lib.Tactic

/-!
# The kernel program's two results

After the region the program cuts the `2048 × 28672` array into its two halves of 14336 columns. The array holds the
group-quantised linear map of the three arguments, so each result is that half of the map.
-/

noncomputable section

open scoped BigOperators
open Idealize.ShloMosaic Idealize.ShloMosaic.TcCoe Idealize.SL.Sem Idealize.ShloMosaic.ValueIdx GroupQuant
open Idealize.ShloMosaic.Pipeline (Dat)

namespace Cert.KernelIdeal.Result

open Cert.KernelIdeal Cert.KernelIdeal.Gen Cert.KernelIdeal.Tiles Cert.KernelIdeal.Accumulate

variable (m : (ℓ : Loc nD τ sig) → Buf (Elt Ideal) ℓ) (ρ : Dev nD → PrngReg)

/-- Columns `0 … 14335` of the map of the arguments as the program finds them. -/
def firstHalf (c : Dev nD) : Buf (Elt Ideal) ((c.tc : Thread nD τ).loc main_v1) :=
  extractStridedSlice S2048x14336 ![0, 0]
    (linear (m ((c.tc : Thread nD τ).loc main_arg0)) (m ((c.tc : Thread nD τ).loc main_arg1)) (m ((c.tc : Thread nD τ).loc main_arg2)))
    slices_S2048x28672_S2048x14336_0_0

/-- Columns `14336 … 28671`. -/
def secondHalf (c : Dev nD) : Buf (Elt Ideal) ((c.tc : Thread nD τ).loc main_v2) :=
  extractStridedSlice S2048x14336 ![0, 14336]
    (linear (m ((c.tc : Thread nD τ).loc main_arg0)) (m ((c.tc : Thread nD τ).loc main_arg1)) (m ((c.tc : Thread nD τ).loc main_arg2)))
    slices_S2048x28672_S2048x14336_0_14336

/-- The array the two slices read is the region's result array, which holds the map. -/
theorem array_eq (c : Dev nD) :
    Pipeline.withArrays (cfgs 0).spec c (V0 m c) (fun w => (dats m 0 c).arrAt w (cfgs 0).N) (Proc.tc.devRef main_v0)
      = linear (m ((c.tc : Thread nD τ).loc main_arg0)) (m ((c.tc : Thread nD τ).loc main_arg1)) (m ((c.tc : Thread nD τ).loc main_arg2)) :=
  (Pipeline.withArrays_arr spec0 launch0.win.arr_inj c _ _ 3).trans (final m c)

theorem tail_v1 (c : Dev nD) :
    Pipeline.afterTail₀ cfgs (dats m) 0 (V0 m) [hostOps1] c main_v1 = firstHalf m c := by
  unfold Pipeline.afterTail₀ firstHalf
  show StableHlo.after hostOps1 _ (Proc.devRef .tc main_v1) = _
  after_results
  exact congrArg (fun a => extractStridedSlice S2048x14336 ![0, 0] a slices_S2048x28672_S2048x14336_0_0) (array_eq m c)

theorem tail_v2 (c : Dev nD) :
    Pipeline.afterTail₀ cfgs (dats m) 0 (V0 m) [hostOps1] c main_v2 = secondHalf m c := by
  unfold Pipeline.afterTail₀ secondHalf
  show StableHlo.after hostOps1 _ (Proc.devRef .tc main_v2) = _
  after_results
  exact congrArg (fun a => extractStridedSlice S2048x14336 ![0, 14336] a slices_S2048x28672_S2048x14336_0_14336) (array_eq m c)

/-- The run, read: both results at their halves of the map, the arguments unchanged. -/
theorem run : θ_run defs (onTc (τ := τ) (main (F := Ideal))) ⟨m, fun _ => 0, ρ⟩ fun r => ∀ c : Dev nD,
      r.2.mem ((c.tc : Thread nD τ).loc main_v1) = firstHalf m c
      ∧ r.2.mem ((c.tc : Thread nD τ).loc main_v2) = secondHalf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v1 (Pipeline.mem_restRefs_of main_v1 rfl (by decide))).trans (tail_v1 m c),
      ((h c).2 main_v2 (Pipeline.mem_restRefs_of main_v2 rfl (by decide))).trans (tail_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefValue.lean ====
import proofs.«167223_j11338713661740_1_alg».proof.Proof.Gen.ReferenceIdeal.Read
import proofs.«167223_j11338713661740_1_alg».proof.Proof.Spec
import Idealize.ShloMosaic.Lib.ValueIdx
import Idealize.ShloMosaic.PureOps.Ideal.Laws

/-!
# The reference computes the group-quantised linear map

The reference clips and rounds the whole weight matrix, views it as `28672 × 32 × 128`, multiplies each group of
128 by its scale (the scales broadcast along the last axis), views the product as `28672 × 4096` again, transposes
it and contracts the activations against it. The two reshapes are inverse re-indexings of the same row-major
positions, so entry `(k, o)` of the transposed matrix is the code of weight `(o, k)` times scale `(o, k / 128)`,
and the contraction is the sum of the 4096 terms.
-/

noncomputable section

open scoped BigOperators
open Idealize.ShloMosaic Idealize.ShloMosaic.ValueIdx GroupQuant

namespace Cert.ReferenceIdeal.RefValue

open Cert.ReferenceIdeal Cert.ReferenceIdeal.Read

/-- Entry `(k, o)` of the transposed dequantised weights. -/
theorem weightT_apply (w : (⟨S28672x4096, .f32⟩ : BufTy).Contents (Elt Ideal)) (s : (⟨S28672x32, .f32⟩ : BufTy).Contents (Elt Ideal))
    (k : Fin 4096) (o : Fin 28672) :
    val_main_v7 (F := Ideal) w s (ix2 k o) = code (w (ix2 o k)) * s (ix2 o ⟨k.val / 128, by have := k.isLt; omega⟩) := by
  have hk := k.isLt; have ho := o.isLt
  have e1 : idx_main_v2 (idx_main_v6 (idx_main_v7 (ix2 k o))) = ix2 o k := funext fun a => Fin.ext (by
    match a with
    | ⟨0, _⟩ => show (((o.val * 4096 + k.val) / 4096 * 32 + (o.val * 4096 + k.val) / 128 % 32) * 128 + (o.val * 4096 + k.val) % 128) / 4096 = o.val; omega
    | ⟨1, _⟩ => show (((o.val * 4096 + k.val) / 4096 * 32 + (o.val * 4096 + k.val) / 128 % 32) * 128 + (o.val * 4096 + k.val) % 128) % 4096 = k.val; omega)
  have e2 : idx_main_v3 (idx_main_v4 (idx_main_v6 (idx_main_v7 (ix2 k o)))) = ix2 o ⟨k.val / 128, by omega⟩ := funext fun a => Fin.ext (by
    match a with
    | ⟨0, _⟩ => show (o.val * 4096 + k.val) / 4096 = o.val; omega
    | ⟨1, _⟩ => show (o.val * 4096 + k.val) / 128 % 32 = k.val / 128; omega)
  rw [val_main_v7_apply, val_main_v6_apply, val_main_v5_apply, val_main_v2_apply, val_main_v1_apply, val_main_v0_apply,
    val_main_call0_v4_apply, val_main_call0_v3_apply, val_main_cst_0_apply, val_main_call0_v2_apply,
    val_main_call0_v1_apply, val_main_call0_v0_apply, val_main_cst_apply, val_main_v4_apply, val_main_v3_apply, e1, e2]
  rfl

/-- The contraction is the map's 4096-term sum. -/
theorem product_eq_linear (x : (⟨S2048x4096, .f32⟩ : BufTy).Contents (Elt Ideal)) (w : (⟨S28672x4096, .f32⟩ : BufTy).Contents (Elt Ideal))
    (s : (⟨S28672x32, .f32⟩ : BufTy).Contents (Elt Ideal)) :
    val_main_v8 (F := Ideal) x w s = linear x w s := by
  funext i
  obtain ⟨p, o, rfl⟩ : ∃ (p : Fin 2048) (o : Fin 28672), i = ix2 p o := ⟨i 0, i 1, eq_ix2 i⟩
  rw [val_main_v8_apply]
  unfold linear
  refine Finset.sum_congr rfl fun k _ => ?_
  have hk := k.isLt
  have el : lidx_main_v8 (ix2 p o) k = ix2 p k := funext fun a => Fin.ext (by
    match a with
    | ⟨0, _⟩ => rfl
    | ⟨1, _⟩ => rfl)
  have er : ridx_main_v8 (ix2 p o) k = ix2 k o := funext fun a => Fin.ext (by
    match a with
    | ⟨0, _⟩ => rfl
    | ⟨1, _⟩ => rfl)
  rw [el, er, weightT_apply]
  unfold term
  rw [entry_of_lt x p.isLt k.isLt, entry_of_lt w o.isLt k.isLt, entry_of_lt s o.isLt (show k.val / 128 < 32 by omega)]

end Cert.ReferenceIdeal.RefValue

end
-- ==== Proof.lean ====
/-
  A group-quantised linear layer, tiled for the matrix unit, against its plain jnp form.

  Both programs compute, for activations `x` (2048 × 4096), weights `w` (28672 × 4096) and per-group scales `s`
  (28672 × 32), the two halves (14336 columns each) of

      y[p, o] = ∑ₖ x[p, k] · (code(w[o, k]) · s[o, k / 128]),    code = round-to-even ∘ clip to [-8, 7],

  read over the extended reals (a change of float format is the identity there, so the kernel's bf16 operands are
  the f32 values). The reference forms the dequantised matrix whole (through a 28672 × 32 × 128 view, whose
  row-major positions are those of the matrix), transposes it, and contracts all 4096 features at once. The kernel
  walks a 16 × 8 grid: for output column tile `n` (1792 columns) it visits the eight tiles of 512 features in
  order, zeroes the output block at the first and adds that tile's partial products at each, and writes the block
  back after the eighth. So the block holds `0 + ∑ over the 8 tiles of the tile's 512 terms`, and since addition
  of extended reals is commutative and associative that is the 4096-term sum: no finiteness of the inputs is used.
  The sixteen blocks tile the result array, and both programs then cut the same two halves out of it.

  Spec.lean states the map and the regrouping of the sum; Payload.lean reads the body's stored value at an entry;
  Pieces.lean and Tiles.lean relate the grid point's tiles to the arrays; Accumulate.lean folds the eight visits
  and reads the array after the region; Result.lean is the kernel program's run; RefValue.lean reads the reference.
-/
import proofs.«167223_j11338713661740_1_alg».proof.Defs
import proofs.«167223_j11338713661740_1_alg».proof.Proof.Gen.Kernel
import proofs.«167223_j11338713661740_1_alg».proof.Proof.Gen.Kernel.Skeleton
import proofs.«167223_j11338713661740_1_alg».proof.Proof.Gen.Kernel.Launch
import proofs.«167223_j11338713661740_1_alg».proof.Proof.Gen.Kernel.Points
import proofs.«167223_j11338713661740_1_alg».proof.Proof.Gen.Kernel.Frame
import proofs.«167223_j11338713661740_1_alg».proof.Proof.Gen.KernelIdeal
import proofs.«167223_j11338713661740_1_alg».proof.Proof.Gen.KernelIdeal.Skeleton
import proofs.«167223_j11338713661740_1_alg».proof.Proof.Gen.KernelIdeal.Launch
import proofs.«167223_j11338713661740_1_alg».proof.Proof.Gen.KernelIdeal.Points
import proofs.«167223_j11338713661740_1_alg».proof.Proof.Gen.KernelIdeal.Frame
import proofs.«167223_j11338713661740_1_alg».proof.Proof.Gen.ReferenceIdeal
import proofs.«167223_j11338713661740_1_alg».proof.Proof.Gen.Pre_finite_inputs
import proofs.«167223_j11338713661740_1_alg».proof.Proof.Gen.ReferenceIdeal.Run
import proofs.«167223_j11338713661740_1_alg».proof.Proof.Gen.ReferenceIdeal.Read
import proofs.«167223_j11338713661740_1_alg».proof.Proof.Result
import proofs.«167223_j11338713661740_1_alg».proof.Proof.RefValue
import Idealize.ShloMosaic.Adequacy
import Idealize.ShloMosaic.Init

noncomputable section

namespace Cert.Proof

open Idealize.ShloMosaic Idealize.SL.Sem GroupQuant

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealised kernel ends with the two halves of the map of its arguments; the reference ends with the same two
    slices of its contraction, which is the map of its arguments; and the arguments agree. -/
theorem algebraic : Cert.algebraic_KernelIdeal_ReferenceIdeal := by
  intro m ρ m' ρ' _ hagree
  refine ⟨Cert.KernelIdeal.Result.firstHalf m, Cert.KernelIdeal.Result.secondHalf m, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v9_eq (F := Ideal) _ _ _).trans ?_
    unfold Cert.ReferenceIdeal.Read.val_main_v9
    rw [Cert.ReferenceIdeal.RefValue.product_eq_linear, (hagree c).1, (hagree c).2.1, (hagree c).2.2]
    rfl
  · refine (Cert.ReferenceIdeal.Read.val_main_v10_eq (F := Ideal) _ _ _).trans ?_
    unfold Cert.ReferenceIdeal.Read.val_main_v10
    rw [Cert.ReferenceIdeal.RefValue.product_eq_linear, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
